-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Kernel.lean ====
abbrev S16384x1024 : Shape := ⟨2, ![16384, 1024]⟩
abbrev S16384x1 : Shape := ⟨2, ![16384, 1]⟩
abbrev S512x1024 : Shape := ⟨2, ![512, 1024]⟩
abbrev S512x1 : Shape := ⟨2, ![512, 1]⟩
abbrev S512 : Shape := ⟨1, ![512]⟩
abbrev S16384 : Shape := ⟨1, ![16384]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1, .f32⟩
  | .hbm, ⟨5, _⟩ => ⟨S16384, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S16384x1_S16384 : S16384x1.ShapeCasts S16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  reducesTo_S16384x1024_S16384_d1 : S16384x1024.ReducesTo [1] S16384
  h_S_ : 0 < S_.numel
  bcast_S_S16384 : S_.BroadcastsInDim S16384 (![] : Fin 0 → Fin S16384.rank)

variable [Facts₀]

class Facts : Prop extends Facts₀ where

variable [Facts]
-- ==== Proof.KlRow.lean ====
/-
  The divergence of one row, as a function on the extended reals.

  For two diagonal Gaussians given by means `q`, `p` and log-variances `sq`, `sp` over 1024 coordinates, the
  Kullback–Leibler divergence is half the sum, over the coordinates, of
      exp (sp - sq) + (q - p)² · exp (-sq) + sq - sp - 1.
  Both programs compute exactly this per row of the four [16384, 1024] arrays; they differ only in how they spell the
  negation inside the second exponential (`0 - sq` against `-sq`), which is one function on the extended reals,
  infinities included, because `0 + y = y` there. No cancellation, distribution or reordering of the sum is used, so
  nothing here needs the inputs to be finite.
-/
import Idealize.ShloMosaic.PureOps.Ideal
import Idealize.ShloMosaic.PureOps.Ideal.Laws
import Idealize.ShloMosaic.Lib.ValueIdx

noncomputable section

namespace Cert.Kl

open Idealize.ShloMosaic Idealize.ShloMosaic.ValueIdx

/-- One coordinate's contribution to a row's divergence: `exp (sp - sq) + (q - p)² · exp (-sq) + sq - sp - 1`, the
    additions and subtractions associated to the left as both programs write them. -/
def term (q sq p sp : EReal) : EReal :=
  Ideal.exp (sp - sq) + (q - p) * (q - p) * Ideal.exp (-sq) + sq - sp - Ideal.ofBits .f32 0x3F800000#32

/-- A row's divergence: one half of the sum of its 1024 contributions. -/
def row (q sq p sp : Fin 1024 → EReal) : EReal :=
  Ideal.ofBits .f32 0x3F000000#32 * ∑ k : Fin 1024, term (q k) (sq k) (p k) (sp k)

/-- Subtracting from the zero word is negation, on every extended real. -/
theorem zero_sub_eq_neg (x : EReal) : Ideal.ofBits .f32 0x00000000#32 - x = -x := by
  rw [Ideal.ofBits_zero_f32, sub_eq_add_neg, zero_add]

/-- Row `r` of four [16384, 1024] arrays, reduced to its divergence. -/
def rowOf (q sq p sp : (⟨2, ![16384, 1024]⟩ : Shape).Idx → EReal) (r : Fin 16384) : EReal :=
  row (fun k => q (ix2 r k)) (fun k => sq (ix2 r k)) (fun k => p (ix2 r k)) (fun k => sp (ix2 r k))

/-- The divergences as a [16384, 1] column: what the grid of row blocks leaves before the trailing unit axis is dropped. -/
def column (q sq p sp : (⟨2, ![16384, 1024]⟩ : Shape).Idx → EReal) : (⟨2, ![16384, 1]⟩ : Shape).Idx → EReal :=
  fun i => rowOf q sq p sp ⟨(i 0).val, (i 0).isLt⟩

/-- The divergences as a [16384] vector: the result of both programs. -/
def vector (q sq p sp : (⟨2, ![16384, 1024]⟩ : Shape).Idx → EReal) : (⟨1, ![16384]⟩ : Shape).Idx → EReal :=
  fun j => rowOf q sq p sp ⟨(j 0).val, (j 0).isLt⟩

end Cert.Kl

end
-- ==== Proof.BlockRow.lean ====
/-
  One grid point's block of the kernel, read at an index.

  At a grid point the body holds four [512, 1024] blocks (means and log-variances of 512 rows) and stores a
  [512, 1] block: entry (p, 0) is one half of the lane sum, over the 1024 coordinates of row p, of the pointwise
  contribution. The lane sum starts from the zero word, which is the neutral element, so at the ideal instance it is
  the plain finite sum; the cast [512] → [512, 1] keeps the row-major position, which for a unit trailing axis is
  the row number.
-/
import proofs.«137492_j17987323036508_1_alg».proof.Proof.Gen.KernelIdeal.Skeleton
import proofs.«137492_j17987323036508_1_alg».proof.Proof.KlRow
import Idealize.ShloMosaic.Lib.Pipeline.Value
import Idealize.ShloMosaic.Lib.ValueIdx
import Idealize.ShloMosaic.PureOps.Ideal.Laws

noncomputable section

namespace Cert.KernelIdeal.BlockRow

open Cert.KernelIdeal Cert.KernelIdeal.Gen Idealize.ShloMosaic Idealize.ShloMosaic.ValueIdx

/-- The pointwise part of the body: every coordinate's contribution, over the four loaded blocks. -/
def contrib (x0 x1 x2 x3 : FVec Ideal S512x1024 .f32) : FVec Ideal S512x1024 .f32 :=
  subf (subf (addf (addf (exp (subf x3 x1))
    (mulf (mulf (subf x0 x2) (subf x0 x2)) (exp (subf (broadcast S512x1024 (Scalar.ofBits .f32 0x00000000#32)) x1)))) x1) x3)
    (broadcast S512x1024 (Scalar.ofBits .f32 0x3F800000#32))

/-- The stored payload is one half of the lane sum of the contributions, recast to a column. -/
theorem pay_eq (x0 x1 x2 x3 : FVec Ideal S512x1024 .f32) :
    k0_pay1 (F := Ideal) x0 x1 x2 x3
      = mulf (broadcast S512x1 (Scalar.ofBits .f32 0x3F000000#32))
          (shapeCast S512x1 (multiReduction .add [1] S512 (contrib x0 x1 x2 x3) 0x00000000#32 reduces_S512x1024_S512 (.inl rfl) rfl)
            shapeCasts_S512_S512x1) := rfl

/-- A contribution at row `p`, coordinate `k`, is the specification's term of the four blocks' entries there: the
    body's `0 - sq` is `-sq`. -/
theorem contrib_apply (x0 x1 x2 x3 : FVec Ideal S512x1024 .f32) (p : Fin 512) (k : Fin 1024) :
    contrib x0 x1 x2 x3 (ix2 p k) = Kl.term (x0 (ix2 p k)) (x1 (ix2 p k)) (x2 (ix2 p k)) (x3 (ix2 p k)) := by
  unfold contrib Kl.term
  simp only [subf_apply, addf_apply, mulf_apply, broadcast_apply, exp, Ideal.exp_def, Scalar.ofBits, Ideal.ofBits_def,
    Kl.zero_sub_eq_neg]

/-- The lane sum of a [512, 1024] block, recast to a column, read at (p, 0): the sum over row p. -/
theorem laneSum_apply (v : FVec Ideal S512x1024 .f32) (p : Fin 512) (u : Fin 1) :
    shapeCast S512x1 (multiReduction .add [1] S512 v 0x00000000#32 reduces_S512x1024_S512 (.inl rfl) rfl)
        shapeCasts_S512_S512x1 (ix2 p u)
      = ∑ k : Fin 1024, v (ix2 p k) := by
  refine (shapeCast_apply _ shapeCasts_S512_S512x1 (ix2 p u) (ix1 p) ?_).trans ?_
  · rw [Shape.rowMajor_val_one, Shape.rowMajor_val_two]
    show p.val = p.val * 1 + u.val
    have := u.isLt
    omega
  · refine (Ideal.multiReduction_add_single v 0x00000000#32 reduces_S512x1024_S512 (.inl rfl) rfl (ix1 p)).trans ?_
    refine Finset.sum_congr rfl fun k _ => ?_
    exact congrArg v (funext fun a => Fin.ext (by match a with | ⟨0, _⟩ => rfl | ⟨1, _⟩ => rfl))

/-- The stored block at (p, 0) is the divergence of row p of the four loaded blocks. -/
theorem pay_apply (x0 x1 x2 x3 : FVec Ideal S512x1024 .f32) (p : Fin 512) (u : Fin 1) :
    k0_pay1 (F := Ideal) x0 x1 x2 x3 (ix2 p u)
      = Kl.row (fun k => x0 (ix2 p k)) (fun k => x1 (ix2 p k)) (fun k => x2 (ix2 p k)) (fun k => x3 (ix2 p k)) := by
  rw [pay_eq]
  unfold Kl.row
  refine congrArg (Ideal.ofBits .f32 0x3F000000#32 * ·) ?_
  refine (laneSum_apply (contrib x0 x1 x2 x3) p u).trans ?_
  exact Finset.sum_congr rfl fun k _ => contrib_apply x0 x1 x2 x3 p k

end Cert.KernelIdeal.BlockRow

end
-- ==== Proof.Rows.lean ====
/-
  The kernel's result array.

  The grid has 32 points; point t stages rows 512 t … 512 t + 511 of each of the four [16384, 1024] arguments and
  writes back rows 512 t … 512 t + 511 of the [16384, 1] output. What it writes is the divergence of each staged
  row, so every written block is a block of ONE column, the rows' divergences; the 32 blocks tile the column (row r
  lies in block r / 512), hence after the region the output array is that column. The program then drops the unit
  axis; a reshape keeps row-major positions, and position j of the vector is position (j, 0) of the column.
-/
import proofs.«137492_j17987323036508_1_alg».proof.Proof.Gen.KernelIdeal.Frame
import proofs.«137492_j17987323036508_1_alg».proof.Proof.BlockRow
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Rows

open Cert.KernelIdeal Cert.KernelIdeal.Gen Idealize.ShloMosaic.ValueIdx

variable (m : (ℓ : Loc nD τ sig) → Buf (Elt Ideal) ℓ) (ρ : Dev nD → PrngReg)

/-- The four argument arrays as the region finds them, at their literal type. -/
abbrev arr0 (c : Dev nD) : S16384x1024.Idx → EReal := V m c main_arg0
abbrev arr1 (c : Dev nD) : S16384x1024.Idx → EReal := V m c main_arg1
abbrev arr2 (c : Dev nD) : S16384x1024.Idx → EReal := V m c main_arg2
abbrev arr3 (c : Dev nD) : S16384x1024.Idx → EReal := V m c main_arg3

/-- The column of divergences of the arguments' rows, at the output array's location. -/
abbrev col (c : Dev nD) : Buf (Elt Ideal) ((c : Thread nD τ).loc main_v0) :=
  Kl.column (arr0 m c) (arr1 m c) (arr2 m c) (arr3 m c)

theorem hz : (![0, 0] : Fin 2 → Nat) = fun _ => 0 := funext fun a => by fin_cases a <;> rfl

/-- The printed index maps, decided over the 32 points: at point t every window is at block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt_points (t : Fin cfg0.N) : t.val < 32 := t.isLt.trans_eq N_0

/-- Entry (p, k) of an input window's block at point t is entry (512 t + p, k) of its array. -/
theorem iblk0_apply (c : Dev nD) (t : Fin cfg0.N) (p : Fin 512) (k : Fin 1024) :
    (iblk m c 0 t : Vec Ideal S512x1024 .f32) (ix2 p k)
      = arr0 m c (ix2 ⟨512 * t.val + p.val, by have := lt_points t; have := p.isLt; omega⟩ k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

theorem iblk1_apply (c : Dev nD) (t : Fin cfg0.N) (p : Fin 512) (k : Fin 1024) :
    (iblk m c 1 t : Vec Ideal S512x1024 .f32) (ix2 p k)
      = arr1 m c (ix2 ⟨512 * t.val + p.val, by have := lt_points t; have := p.isLt; omega⟩ k) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

theorem iblk2_apply (c : Dev nD) (t : Fin cfg0.N) (p : Fin 512) (k : Fin 1024) :
    (iblk m c 2 t : Vec Ideal S512x1024 .f32) (ix2 p k)
      = arr2 m c (ix2 ⟨512 * t.val + p.val, by have := lt_points t; have := p.isLt; omega⟩ k) := by
  obtain ⟨-, -, -, -, e0, e1, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 2) * 512 + 1 * p.val = 512 * t.val + p.val; rw [e0]; omega
  | ⟨1, _⟩ => show win0_2.index t (1 : Fin 2) * 1024 + 1 * k.val = k.val; rw [e1]; omega

theorem iblk3_apply (c : Dev nD) (t : Fin cfg0.N) (p : Fin 512) (k : Fin 1024) :
    (iblk m c 3 t : Vec Ideal S512x1024 .f32) (ix2 p k)
      = arr3 m c (ix2 ⟨512 * t.val + p.val, by have := lt_points t; have := p.isLt; omega⟩ k) := by
  obtain ⟨-, -, -, -, -, -, e0, e1, -⟩ := idx_facts t
  unfold iblk
  rw [View.read_apply]
  show V m c main_arg3 _ = V m c main_arg3 _
  refine congrArg (V m c main_arg3) (funext fun a => Fin.ext ?_)
  match a with
  | ⟨0, _⟩ => show win0_3.index t (0 : Fin 2) * 512 + 1 * p.val = 512 * t.val + p.val; rw [e0]; omega
  | ⟨1, _⟩ => show win0_3.index t (1 : Fin 2) * 1024 + 1 * k.val = k.val; rw [e1]; omega

/-- The divergence of row p of four blocks that are rows 512 b … of four arrays is the column's entry 512 b + p. -/
theorem row_of_blocks (x0 x1 x2 x3 : FVec Ideal S512x1024 .f32) (A0 A1 A2 A3 : S16384x1024.Idx → EReal)
    (b : Nat) (hb : b < 32) (p : Fin 512)
    (h0 : ∀ k : Fin 1024, x0 (ix2 p k) = A0 (ix2 ⟨512 * b + p.val, by have := p.isLt; omega⟩ k))
    (h1 : ∀ k : Fin 1024, x1 (ix2 p k) = A1 (ix2 ⟨512 * b + p.val, by have := p.isLt; omega⟩ k))
    (h2 : ∀ k : Fin 1024, x2 (ix2 p k) = A2 (ix2 ⟨512 * b + p.val, by have := p.isLt; omega⟩ k))
    (h3 : ∀ k : Fin 1024, x3 (ix2 p k) = A3 (ix2 ⟨512 * b + p.val, by have := p.isLt; omega⟩ k)) :
    Kl.row (fun k => x0 (ix2 p k)) (fun k => x1 (ix2 p k)) (fun k => x2 (ix2 p k)) (fun k => x3 (ix2 p k))
      = Kl.rowOf A0 A1 A2 A3 ⟨512 * b + p.val, by have := p.isLt; omega⟩ := by
  unfold Kl.rowOf
  rw [funext h0, funext h1, funext h2, funext h3]

/-- WHAT POINT t WRITES BACK is block t of the column of divergences. -/
theorem flushed_eq (c : Dev nD) (t : Fin cfg0.N) :
    (dats m 0 c).flushed 4 t = ((cfg0.win 4).blk t).view.read (Elt Ideal) (col m c) := by
  show (cfg0.win 4).cut (grid0.coords t) ((dats m 0 c).after 4 t) = _
  rw [after0_4]
  unfold out0_4
  rw [View.canon_unit_zero hz]
  simp only [View.ld_unit_zero (S := S512x1024) hz]
  obtain ⟨-, -, -, -, -, -, -, -, e0, e1⟩ := idx_facts t
  funext j
  obtain ⟨p, u, rfl⟩ : ∃ (p : Fin 512) (u : Fin 1), j = ix2 p u := ⟨j 0, j 1, eq_ix2 j⟩
  refine (BlockRow.pay_apply (iblk m c 0 t) (iblk m c 1 t) (iblk m c 2 t) (iblk m c 3 t) p u).trans ?_
  refine (row_of_blocks (iblk m c 0 t) (iblk m c 1 t) (iblk m c 2 t) (iblk m c 3 t) (arr0 m c) (arr1 m c) (arr2 m c) (arr3 m c)
    t.val (lt_points t) p (iblk0_apply m c t p) (iblk1_apply m c t p) (iblk2_apply m c t p) (iblk3_apply m c t p)).trans ?_
  rw [View.read_apply]
  show Kl.rowOf (arr0 m c) (arr1 m c) (arr2 m c) (arr3 m c) _ = Kl.rowOf (arr0 m c) (arr1 m c) (arr2 m c) (arr3 m c) _
  refine congrArg (Kl.rowOf (arr0 m c) (arr1 m c) (arr2 m c) (arr3 m c)) (Fin.ext ?_)
  show 512 * t.val + p.val = win0_4.index t (0 : Fin 2) * 512 + 1 * p.val
  rw [e0]; omega

/-- An index of the output array is in point t's block iff each coordinate is in the block's range on its axis. -/
theorem mem_blk (t : Fin cfg0.N) (i : S16384x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v0).slice (win0_4.rect t)).set ↔ _
  rw [View.set_slice_whole, Rect.mem_set_unit]
  exact Iff.rfl

/-- Row r of the output lies in the block of point r / 512. -/
theorem cover (i : S16384x1.Idx) : ∃ t : Fin cfg0.N, (cfg0.win 4).flush t = true ∧ i ∈ ((cfg0.win 4).blk t).view.set := by
  have hi0 : (i 0).val < 16384 := (i 0).isLt
  have hi1 : (i 1).val < 1 := (i 1).isLt
  have hq : (i 0).val / 512 < 32 := by omega
  refine ⟨⟨(i 0).val / 512, hq.trans_eq N_0.symm⟩, flush0_4 _, ?_⟩
  obtain ⟨-, -, -, -, -, -, -, -, e0, e1⟩ := idx_facts ⟨(i 0).val / 512, hq.trans_eq N_0.symm⟩
  rw [mem_blk]
  intro a
  match a with
  | ⟨0, _⟩ =>
    show win0_4.index ⟨(i 0).val / 512, _⟩ (0 : Fin 2) * 512 ≤ (i 0).val ∧ (i 0).val < win0_4.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, _⟩ (1 : Fin 2) * 1 ≤ (i 1).val ∧ (i 1).val < win0_4.index ⟨(i 0).val / 512, _⟩ (1 : Fin 2) * 1 + 1
    rw [e1]; omega

/-- THE OUTPUT ARRAY after the region is the column of divergences. -/
theorem final (c : Dev nD) : (dats m 0 c).arrAt 4 cfg0.N = col m c :=
  (dats m 0 c).arrAt_eq_of_cover 4 (col m c) (fun t _ => flushed_eq m c t) (cover)

/-! ## After the region: the unit axis dropped -/

/-- The result buffer is none of the pipeline's arrays, so the frame run states it at the tail's value. -/
theorem result_mem : main_v1 ∈ Pipeline.restRefs sig (cfgs 0).spec := Pipeline.mem_restRefs_of main_v1 rfl (by decide)

/-- The column as the lines after the region find it. -/
theorem exit_col (c : Dev nD) :
    Pipeline.withArrays (cfgs 0).spec c (V0 m c) (fun w => (dats m 0 c).arrAt w (cfgs 0).N) (Proc.devRef .tc main_v0) = col m c :=
  (Pipeline.withArrays_arr spec0 launch0.win.arr_inj c _ _ 4).trans (final m c)

/-- THE RESULT: the reshape of the column reads, at j, the column at (j, 0): the divergence of row j. -/
theorem result_eq (c : Dev nD) :
    (Pipeline.afterTail₀ cfgs (dats m) 0 (V0 m) [hostOps1] c main_v1 : S16384.Idx → EReal)
      = Kl.vector (arr0 m c) (arr1 m c) (arr2 m c) (arr3 m c) := by
  unfold Pipeline.afterTail₀
  show StableHlo.after hostOps1 _ (Proc.devRef .tc main_v1) = _
  after_results
  funext j
  show shapeCast S16384 (Pipeline.withArrays (cfgs 0).spec c (V0 m c) (fun w => (dats m 0 c).arrAt w (cfgs 0).N) (Proc.devRef .tc main_v0))
      shapeCasts_S16384x1_S16384 j = _
  refine (shapeCast_apply _ shapeCasts_S16384x1_S16384 j (ix2 ⟨(j 0).val, (j 0).isLt⟩ 0) ?_).trans ?_
  · rw [Shape.rowMajor_val_one, Shape.rowMajor_val_two]
    show (j 0).val * 1 + 0 = (j 0).val
    omega
  · rw [exit_col]
    rfl

/-- The same vector over the argument arrays as the memory holds them at the start. -/
theorem vector_args (c : Dev nD) :
    Kl.vector (arr0 m c) (arr1 m c) (arr2 m c) (arr3 m c)
      = Kl.vector (m ((c : Thread nD τ).loc main_arg0)) (m ((c : Thread nD τ).loc main_arg1))
          (m ((c : Thread nD τ).loc main_arg2)) (m ((c : Thread nD τ).loc main_arg3)) := rfl

/-- The frame run re-posted: the result at the vector of the rows' divergences, the arguments unchanged. -/
theorem run : θ_run defs (onTc (τ := τ) (main (F := Ideal))) ⟨m, fun _ => 0, ρ⟩ fun r => ∀ c : Dev nD,
      r.2.mem ((c : Thread nD τ).loc main_v1)
        = Kl.vector (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(((h c).2 main_v1 result_mem).trans (result_eq m c)).trans (vector_args m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Rows

end
-- ==== Proof.RefRows.lean ====
/-
  The reference's result, read at an index.

  The reference forms the [16384, 1024] array of contributions with whole-array operations, sums it along the second
  axis from the zero word, and halves the [16384] vector of sums. Read at row j this is one half of the sum over k of
  the contribution at (j, k): the divergence of row j. The sum's initial value is the zero word, which is 0, and
  `0 + s = s` on every extended real.
-/
import proofs.«137492_j17987323036508_1_alg».proof.Proof.Gen.ReferenceIdeal.Read
import proofs.«137492_j17987323036508_1_alg».proof.Proof.KlRow
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx

/-- The array of contributions at (r, k) is the specification's term of the four arguments' entries there. -/
theorem contrib_apply (x0 x1 x2 x3 : (⟨S16384x1024, .f32⟩ : BufTy).Contents (Elt Ideal)) (r : Fin 16384) (k : Fin 1024) :
    val_main_v11 (F := Ideal) x0 x1 x2 x3 (ix2 r k)
      = Kl.term (x0 (ix2 r k)) (x1 (ix2 r k)) (x2 (ix2 r k)) (x3 (ix2 r k)) := by
  rw [val_main_v11_apply, val_main_v10_apply, val_main_cst_apply, val_main_v9_apply, val_main_v8_apply, val_main_v7_apply,
    val_main_v6_apply, val_main_v5_apply, val_main_v4_apply, val_main_v3_apply, val_main_v2_apply, val_main_v1_apply,
    val_main_v0_apply]
  unfold Kl.term
  simp only [Ideal.subf_def, Ideal.addf_def, Ideal.mulf_def, Ideal.hostUnary_exp_def, Ideal.hostNegf_def, Ideal.negf_def,
    Ideal.ofBits_def]

/-- The reference's result is the vector of the rows' divergences. -/
theorem result_eq (x0 x1 x2 x3 : (⟨S16384x1024, .f32⟩ : BufTy).Contents (Elt Ideal)) :
    val_main_v14 (F := Ideal) x0 x1 x2 x3 = Kl.vector x0 x1 x2 x3 := by
  funext j
  rw [val_main_v14_apply, val_main_v13_apply, val_main_cst_1_apply, val_main_v12_apply, val_main_cst_0_apply]
  unfold Kl.vector Kl.rowOf Kl.row
  simp only [Ideal.mulf_def, Ideal.ofBits_def, Ideal.ofBits_zero_f32, zero_add]
  refine congrArg (Ideal.ofBits .f32 0x3F000000#32 * ·) (Finset.sum_congr rfl fun k _ => ?_)
  have hidx : idx_main_v12 j k = ix2 ⟨(j 0).val, (j 0).isLt⟩ k :=
    funext fun a => Fin.ext (by match a with | ⟨0, _⟩ => rfl | ⟨1, _⟩ => rfl)
  rw [hidx]
  exact contrib_apply x0 x1 x2 x3 _ k

end Cert.ReferenceIdeal.Rows

end
-- ==== Proof.lean ====
/-
  The Kullback–Leibler divergence between two batches of 16384 diagonal Gaussians over 1024 coordinates, given by
  means and log-variances: per row, one half of the sum over the coordinates of
      exp (sp - sq) + (q - p)² · exp (-sq) + sq - sp - 1.

  The kernel walks 32 blocks of 512 rows, reduces each row of a block along its lanes and writes a [512, 1] block of
  a [16384, 1] column, whose unit axis the program then drops. The reference forms the contributions array whole,
  sums it along the second axis and halves the vector. Read at the ideal instance, row j of either result is the
  same finite sum of the same terms in the same order (Proof/KlRow.lean): the only difference in spelling, the
  kernel's `0 - sq` against the reference's `-sq`, is no difference on the extended reals. So the two results are
  equal without any use of the inputs' finiteness.

  The three frames are the generated ones (the reference's is its generated run with the result dropped); the
  idealization rewrote nothing, so `preserves` is trivial; `algebraic` puts the kernel's run, re-posted at the
  vector of row divergences (Proof/Rows.lean over Proof/BlockRow.lean), beside the reference's generated run, read
  at an index to the same vector (Proof/RefRows.lean).
-/
import proofs.«137492_j17987323036508_1_alg».proof.Defs
import proofs.«137492_j17987323036508_1_alg».proof.Proof.Gen.Kernel
import proofs.«137492_j17987323036508_1_alg».proof.Proof.Gen.Kernel.Skeleton
import proofs.«137492_j17987323036508_1_alg».proof.Proof.Gen.Kernel.Launch
import proofs.«137492_j17987323036508_1_alg».proof.Proof.Gen.Kernel.Points
import proofs.«137492_j17987323036508_1_alg».proof.Proof.Gen.Kernel.Frame
import proofs.«137492_j17987323036508_1_alg».proof.Proof.Gen.KernelIdeal
import proofs.«137492_j17987323036508_1_alg».proof.Proof.Gen.KernelIdeal.Skeleton
import proofs.«137492_j17987323036508_1_alg».proof.Proof.Gen.KernelIdeal.Launch
import proofs.«137492_j17987323036508_1_alg».proof.Proof.Gen.KernelIdeal.Points
import proofs.«137492_j17987323036508_1_alg».proof.Proof.Gen.KernelIdeal.Frame
import proofs.«137492_j17987323036508_1_alg».proof.Proof.Gen.ReferenceIdeal
import proofs.«137492_j17987323036508_1_alg».proof.Proof.Gen.Pre_finite_inputs
import proofs.«137492_j17987323036508_1_alg».proof.Proof.Gen.ReferenceIdeal.Run
import proofs.«137492_j17987323036508_1_alg».proof.Proof.Gen.ReferenceIdeal.Read
import proofs.«137492_j17987323036508_1_alg».proof.Proof.Rows
import proofs.«137492_j17987323036508_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the four arguments, end with the vector of the rows' divergences. -/
theorem algebraic : Cert.algebraic_KernelIdeal_ReferenceIdeal := by
  intro m ρ m' ρ' _ hagree
  refine ⟨fun c => Cert.Kl.vector
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Rows.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
